-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S16 : Shape := ⟨1, ![16]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : IVec S1048576 32) (main_arg2 : IVec S16 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  main_v3
-- ==== Kernel.lean ====
abbrev S1048576x128 : Shape := ⟨2, ![1048576, 128]⟩
abbrev S1048576 : Shape := ⟨1, ![1048576]⟩
abbrev S16 : Shape := ⟨1, ![16]⟩
abbrev S1048576x1 : Shape := ⟨2, ![1048576, 1]⟩
abbrev S16x1 : Shape := ⟨2, ![16, 1]⟩
abbrev S16x128 : Shape := ⟨2, ![16, 128]⟩
abbrev S16384x1 : Shape := ⟨2, ![16384, 1]⟩
abbrev S16384x128 : Shape := ⟨2, ![16384, 128]⟩
abbrev S16384x16 : Shape := ⟨2, ![16384, 16]⟩

abbrev nBuf : Space → Nat
  | .hbm => 7
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S16, .i32⟩
  | .hbm, ⟨3, _⟩ => ⟨S1048576x1, .i32⟩
  | .hbm, ⟨4, _⟩ => ⟨S16, .f32⟩
  | .hbm, ⟨5, _⟩ => ⟨S16x1, .f32⟩
  | .hbm, ⟨6, _⟩ => ⟨S16x128, .f32⟩
  | .local _ .vmem, ⟨0, _⟩ => ⟨S16384x1, .i32⟩
  | .local _ .vmem, ⟨1, _⟩ => ⟨S16384x1, .i32⟩
  | .local _ .vmem, ⟨2, _⟩ => ⟨S16384x128, .f32⟩
  | .local _ .vmem, ⟨3, _⟩ => ⟨S16384x128, .f32⟩
  | .local _ .vmem, ⟨4, _⟩ => ⟨S16x1, .f32⟩
  | .local _ .vmem, ⟨5, _⟩ => ⟨S16x128, .f32⟩
  | .local _ .vmem, ⟨6, _⟩ => ⟨S16x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1048576_S1048576x1 : S1048576.ShapeCasts S1048576x1
  shapeCasts_S16_S16x1 : S16.ShapeCasts S16x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  iota_S16384x16_d1_w32 : S16384x16.Iotas .tc 32 [1]
  broadcasts_S16384x1_S16384x16 : S16384x1.Broadcasts S16384x16
  natLt_1_32 : 1 < 32
  inb_S16384x128_S16384x128_0_0 : ∀ a, (![0, 0] : Fin 2 → Nat) a + S16384x128.size a ≤ S16384x128.size a
  h_S16384x128 : 0 < S16384x128.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x128 : S16x1.Broadcasts S16x128
  dot_S16384x16_S16384x128_S16x128_0_0_1_1_n_n_wf : DotDims.WF S16384x16 S16384x128 S16x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x1.size a ≤ S1048576x1.size a
  hwx0_0 : ∀ i : grid0.Coords, EltTy.bits .i32 = 32 ∨ (Rect.block (s := S1048576x1) S16384x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S1048576x128.size a
  hwx0_1 : ∀ i : grid0.Coords, EltTy.bits .f32 = 32 ∨ (Rect.block (s := S1048576x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)

variable [Facts₀]

def dot_S16384x16_S16384x128_S16x128_0_0_1_1_n_n : DotDims S16384x16 S16384x128 S16x128 where
  lhsContracting := [0]
  rhsContracting := [0]
  lhsNonContracting := [1]
  rhsNonContracting := [1]
  lhsBatch := []
  rhsBatch := []
  wf := dot_S16384x16_S16384x128_S16x128_0_0_1_1_n_n_wf

abbrev win0_0 : Pipeline.Window sig grid0 :=
  Pipeline.Window.ofSpec (Memref.whole main_v0) S16384x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1048576x128 : Shape := ⟨2, ![1048576, 128]⟩
abbrev S1048576 : Shape := ⟨1, ![1048576]⟩
abbrev S16 : Shape := ⟨1, ![16]⟩
abbrev S_ : Shape := ⟨0, ![]⟩
abbrev S16x128 : Shape := ⟨2, ![16, 128]⟩
abbrev S1048576x1 : Shape := ⟨2, ![1048576, 1]⟩
abbrev S16x1 : Shape := ⟨2, ![16, 1]⟩

abbrev nBuf : Space → Nat
  | .hbm => 11
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S16, .i32⟩
  | .hbm, ⟨3, _⟩ => ⟨S_, .f32⟩
  | .hbm, ⟨4, _⟩ => ⟨S16x128, .f32⟩
  | .hbm, ⟨5, _⟩ => ⟨S1048576x1, .i32⟩
  | .hbm, ⟨6, _⟩ => ⟨S16x128, .f32⟩
  | .hbm, ⟨7, _⟩ => ⟨S16x1, .i32⟩
  | .hbm, ⟨8, _⟩ => ⟨S16x1, .f32⟩
  | .hbm, ⟨9, _⟩ => ⟨S16x128, .f32⟩
  | .hbm, ⟨10, _⟩ => ⟨S16x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S1048576_S1048576x1_0 : S1048576.BroadcastsInDim S1048576x1 (![0] : Fin 1 → Fin S1048576x1.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  scatter_S16x128_S1048576x1_S1048576x128_1_0_0_1_wf : ScatterDims.WF S16x128 S1048576x1 S1048576x128 [1] [0] [0] 1

variable [Facts₀]

def scatter_S16x128_S1048576x1_S1048576x128_1_0_0_1 : ScatterDims S16x128 S1048576x1 S1048576x128 where
  updateWindowDims := [1]
  insertedWindowDims := [0]
  scatterDimsToOperandDims := [0]
  indexVectorDim := 1
  wf := scatter_S16x128_S1048576x1_S1048576x128_1_0_0_1_wf

class Facts : Prop extends Facts₀ where

variable [Facts]
-- ==== Proof.KernelPieces.lean ====
/-
  What the body's stores leave behind, case by case, as values of what the body loaded.

  The body keeps a running [16,128] total in a buffer of its own. At the first grid point it stores a block of zeros
  there, reads it back, and stores "what it read plus this tile's contribution"; at every later point it reads the
  total the point before left and stores "that plus this tile's contribution"; at the last point it then reads the
  total once more and stores its quotient by the lengths column into the output block. Each lemma below says that
  the buffer's final contents in one of these cases are the one covering store's value, a pure function of the
  tile's segment column, the tile's rows, the lengths column and the total found.
-/
import proofs.«412214_j68238440399538_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- A LATER POINT THAT IS NOT THE LAST: the running total found, plus this tile's contribution. -/
theorem total_B (c : Dev nD) (i : grid0.Coords) (arg1 : Memref sig .tc .vmem S16384x1 .i32) (harg1 : arg1.IsWhole) (arg2 : Memref sig .tc .vmem S16384x128 .f32) (harg2 : arg2.IsWhole) (arg3 : Memref sig .tc .vmem S16x1 .f32) (harg3 : arg3.IsWhole) (arg4 : Memref sig .tc .vmem S16x128 .f32) (harg4 : arg4.IsWhole) (arg5 : Memref sig .tc .vmem S16x128 .f32) (harg5 : arg5.IsWhole) (hc0 : ¬cond0_0 i) (hc1 : ¬cond0_1 i)
    (x0 : Vec F S16384x1 .i32) (x1 : Vec F S16384x128 .f32) (x2 : Vec F S16x1 .f32) (xs0 : Vec F S16x128 .f32) :
    sout0_B_0 c i arg1 harg1 arg2 harg2 arg3 harg3 arg4 harg4 arg5 harg5 hc0 hc1 x0 x1 x2 xs0 = k0_pay2 x0 x1 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero zero_offsets]
  simp only [View.readAt_eq_ld, harg1.read_unread, harg2.read_unread, harg5.read_unread, View.ld_unit_zero (S := S16384x1) zero_offsets, View.ld_unit_zero (S := S16384x128) zero_offsets, View.ld_unit_zero (S := S16x128) zero_offsets]

/-- THE FIRST POINT: the zero block, plus this tile's contribution. -/
theorem total_A (c : Dev nD) (i : grid0.Coords) (arg1 : Memref sig .tc .vmem S16384x1 .i32) (harg1 : arg1.IsWhole) (arg2 : Memref sig .tc .vmem S16384x128 .f32) (harg2 : arg2.IsWhole) (arg3 : Memref sig .tc .vmem S16x1 .f32) (harg3 : arg3.IsWhole) (arg4 : Memref sig .tc .vmem S16x128 .f32) (harg4 : arg4.IsWhole) (arg5 : Memref sig .tc .vmem S16x128 .f32) (harg5 : arg5.IsWhole) (hc0 : cond0_0 i) (hc1 : ¬cond0_1 i)
    (x0 : Vec F S16384x1 .i32) (x1 : Vec F S16384x128 .f32) (x2 : Vec F S16x1 .f32) :
    sout0_A_0 c i arg1 harg1 arg2 harg2 arg3 harg3 arg4 harg4 arg5 harg5 hc0 hc1 x0 x1 x2 = k0_pay2 x0 x1 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S16x128) zero_offsets, View.readCov_unit_zero (S := S16x128) _ zero_offsets]
  simp only [View.readAt_eq_ld, harg1.read_unread, harg2.read_unread, View.ld_unit_zero (S := S16384x1) zero_offsets, View.ld_unit_zero (S := S16384x128) zero_offsets, View.ld_unit_zero (S := S16x128) zero_offsets]

/-- THE LAST POINT, the running total: as at any later point. -/
theorem total_C (c : Dev nD) (i : grid0.Coords) (arg1 : Memref sig .tc .vmem S16384x1 .i32) (harg1 : arg1.IsWhole) (arg2 : Memref sig .tc .vmem S16384x128 .f32) (harg2 : arg2.IsWhole) (arg3 : Memref sig .tc .vmem S16x1 .f32) (harg3 : arg3.IsWhole) (arg4 : Memref sig .tc .vmem S16x128 .f32) (harg4 : arg4.IsWhole) (arg5 : Memref sig .tc .vmem S16x128 .f32) (harg5 : arg5.IsWhole) (hc0 : ¬cond0_0 i) (hc1 : cond0_1 i)
    (x0 : Vec F S16384x1 .i32) (x1 : Vec F S16384x128 .f32) (x2 : Vec F S16x1 .f32) (xs0 : Vec F S16x128 .f32) :
    sout0_C_0 c i arg1 harg1 arg2 harg2 arg3 harg3 arg4 harg4 arg5 harg5 hc0 hc1 x0 x1 x2 xs0 = k0_pay2 x0 x1 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero zero_offsets]
  simp only [View.readAt_eq_ld, harg1.read_unread, harg2.read_unread, harg5.read_unread, View.ld_unit_zero (S := S16384x1) zero_offsets, View.ld_unit_zero (S := S16384x128) zero_offsets, View.ld_unit_zero (S := S16x128) zero_offsets]

/-- THE LAST POINT, the output block: the new running total divided by the lengths column. -/
theorem out_C (c : Dev nD) (i : grid0.Coords) (arg1 : Memref sig .tc .vmem S16384x1 .i32) (harg1 : arg1.IsWhole) (arg2 : Memref sig .tc .vmem S16384x128 .f32) (harg2 : arg2.IsWhole) (arg3 : Memref sig .tc .vmem S16x1 .f32) (harg3 : arg3.IsWhole) (arg4 : Memref sig .tc .vmem S16x128 .f32) (harg4 : arg4.IsWhole) (arg5 : Memref sig .tc .vmem S16x128 .f32) (harg5 : arg5.IsWhole) (hc0 : ¬cond0_0 i) (hc1 : cond0_1 i)
    (x0 : Vec F S16384x1 .i32) (x1 : Vec F S16384x128 .f32) (x2 : Vec F S16x1 .f32) (xs0 : Vec F S16x128 .f32) :
    out0_C_3 c i arg1 harg1 arg2 harg2 arg3 harg3 arg4 harg4 arg5 harg5 hc0 hc1 x0 x1 x2 xs0 = k0_pay3 x2 (k0_pay2 x0 x1 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero zero_offsets]
  simp only [View.readAt_eq_ld, harg1.read_unread, harg2.read_unread, harg3.read_unread, harg5.read_unread, View.ld_unit_zero (S := S16384x1) zero_offsets, View.ld_unit_zero (S := S16384x128) zero_offsets, View.ld_unit_zero (S := S16x128) zero_offsets, View.ld_unit_zero (S := S16x1) zero_offsets, View.readCov_unit_zero (S := S16x128) _ zero_offsets]

end Cert.KernelIdeal.Pieces

end
-- ==== Proof.SegSum.lean ====
/-
  The arithmetic of a per-segment sum, away from any program.

  A segment sum of the rows of a table is, column by column, the sum over ALL rows of the entry when the row's
  segment word names the segment and of zero otherwise. Three facts are used to join the two ways of computing it.
  (1) A machine word compared for equality with a small natural number `b`, widened and read as a signed integer,
  is `1` exactly when the word read signed is `b`, and `0` otherwise. (2) On the extended reals `1 · x = x` and
  `0 · x = 0` for every `x`, infinities included, so a product with such an indicator is a choice between `x` and
  `0`. (3) A sum over the first `(n + 1) · T` naturals is the sum over the first `n · T` plus the sum over the next
  tile of `T`: the running total after tile `n`.
-/
import Mathlib.Data.EReal.Operations
import Mathlib.Algebra.BigOperators.Group.Finset.Basic
import Mathlib.Algebra.BigOperators.Fin
import Idealize.ShloMosaic.PureOps.Ideal
import Idealize.ShloMosaic.Lib.ValueIdx

noncomputable section

namespace Cert.SegMean

open Idealize.ShloMosaic Idealize.ShloMosaic.ValueIdx

/-- The word of a natural `b < 2^31` reads, signed, as `b`. -/
theorem toInt_ofNat_small (b : ℕ) (hb : b < 2147483648) : (BitVec.ofNat 32 b).toInt = (b : ℤ) := by
  have hn : (BitVec.ofNat 32 b).toNat = b := by
    rw [BitVec.toNat_ofNat]
    exact Nat.mod_eq_of_lt (by omega)
  rw [BitVec.toInt_eq_toNat_of_lt (by rw [hn]; omega), hn]

/-- A 32-bit word equals the word of a natural `b < 2^31` exactly when it reads, signed, as `b`. -/
theorem word_eq_ofNat_iff (w : BitVec 32) (b : ℕ) (hb : b < 2147483648) :
    w = BitVec.ofNat 32 b ↔ w.toInt = (b : ℤ) := by
  constructor
  · rintro rfl
    exact toInt_ofNat_small b hb
  · intro h
    apply BitVec.eq_of_toInt_eq
    rw [h, toInt_ofNat_small b hb]

/-- THE ONE-HOT ENTRY: the equality test of a word against `b`, widened to 32 bits and read signed, is the
    indicator of "the word reads `b`". -/
theorem hot_toInt (w : BitVec 32) (b : ℕ) (hb : b < 2147483648) :
    ((IntOp.cmpi .eq w (BitVec.ofNat 32 b)).setWidth 32).toInt = if w.toInt = (b : ℤ) then 1 else 0 := by
  by_cases h : w = BitVec.ofNat 32 b
  · rw [if_pos ((word_eq_ofNat_iff w b hb).mp h)]
    subst h
    simp [IntOp.cmpi]
  · rw [if_neg (fun h' => h ((word_eq_ofNat_iff w b hb).mpr h'))]
    have : (w == BitVec.ofNat 32 b) = false := by simpa using h
    simp [IntOp.cmpi, this]

/-- The same as an extended real. -/
theorem hot_ereal (w : BitVec 32) (b : ℕ) (hb : b < 2147483648) :
    ((((IntOp.cmpi .eq w (BitVec.ofNat 32 b)).setWidth 32).toInt : ℝ) : EReal) = if w.toInt = (b : ℤ) then 1 else 0 := by
  rw [hot_toInt w b hb]
  split <;> simp

/-- An indicator times `x` chooses between `x` and `0`: on the extended reals with no finiteness. -/
theorem ite_one_zero_mul (p : Prop) [Decidable p] (x : EReal) : (if p then (1 : EReal) else 0) * x = if p then x else 0 := by
  split
  · exact one_mul x
  · exact zero_mul x

/-- THE RUNNING TOTAL: the sum over the first `(n + 1) · T` naturals is the sum over the first `n · T` plus the
    sum over tile `n`. -/
theorem sum_range_succ_tile {M : Type} [AddCommMonoid M] (f : ℕ → M) (T n : ℕ) :
    ∑ r ∈ Finset.range ((n + 1) * T), f r = ∑ r ∈ Finset.range (n * T), f r + ∑ k ∈ Finset.range T, f (n * T + k) := by
  rw [Nat.add_mul, Nat.one_mul, Finset.sum_range_add]

/-- THE SEGMENT MEAN, the one function both programs compute: entry `(b, d)` is the sum, over all 1048576 rows `r`,
    of `x[r, d]` when row `r`'s segment word reads `b` and of zero otherwise, divided by segment `b`'s length
    word read as a signed integer. A row whose word reads outside `0 … 15` enters no segment. -/
def segMean (x : (⟨2, ![1048576, 128]⟩ : Shape).Idx → EReal) (seg : (⟨1, ![1048576]⟩ : Shape).Idx → BitVec 32)
    (len : (⟨1, ![16]⟩ : Shape).Idx → BitVec 32) : (⟨2, ![16, 128]⟩ : Shape).Idx → EReal :=
  fun j => Ideal.div (∑ r : Fin 1048576, if (seg (ix1 r)).toInt = ((j 0).val : ℤ) then x (ix2 r (j 1)) else 0)
    (((len (ix1 (j 0))).toInt : ℝ) : EReal)

end Cert.SegMean

end
-- ==== Proof.KernelTile.lean ====
/-
  One tile's step of the running total, entry by entry.

  At a grid point the body builds, from the tile's segment column `s : [16384, 1]`, the one-hot table
  `h[k, b] = float(s[k, 0] == b)` over `b = 0 … 15`, contracts it with the tile's rows `x : [16384, 128]` over the row
  axis, and adds the product to the total it found: entry `(b, d)` of the new total is the old entry plus
  `Σ_k h[k, b] · x[k, d]`. The one-hot entry is `1` when the word `s[k, 0]` reads `b` and `0` otherwise, and on the
  extended reals `1 · x = x`, `0 · x = 0`, so the sum is the sum over the tile's rows of `x[k, d]` or zero. At the last
  point the total is divided, entry by entry, by the lengths column spread along the columns.
-/
import proofs.«412214_j68238440399538_1_alg».proof.Proof.Gen.KernelIdeal.Skeleton
import proofs.«412214_j68238440399538_1_alg».proof.Proof.SegSum
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.SegMean

/-- The contraction's dimension numbers: both operands contract their row axis. -/
abbrev D := dot_S16384x16_S16384x128_S16x128_0_0_1_1_n_n

/-- The one-hot operand is read at (contraction position, output row) … -/
theorem lhs_0 (j : S16x128.Idx) (k : D.contr.Idx) : (D.lhsIdx j k 0 : ℕ) = k ⟨0, by decide⟩ := by
  simp [DotDims.lhsIdx, D, dot_S16384x16_S16384x128_S16x128_0_0_1_1_n_n]; rfl
theorem lhs_1 (j : S16x128.Idx) (k : D.contr.Idx) : (D.lhsIdx j k 1 : ℕ) = j 0 := by
  simp [DotDims.lhsIdx, D, dot_S16384x16_S16384x128_S16x128_0_0_1_1_n_n]; rfl
/-- … and the rows operand at (contraction position, output column). -/
theorem rhs_0 (j : S16x128.Idx) (k : D.contr.Idx) : (D.rhsIdx j k 0 : ℕ) = k ⟨0, by decide⟩ := by
  simp [DotDims.rhsIdx, D, dot_S16384x16_S16384x128_S16x128_0_0_1_1_n_n]; rfl
theorem rhs_1 (j : S16x128.Idx) (k : D.contr.Idx) : (D.rhsIdx j k 1 : ℕ) = j 1 := by
  simp [DotDims.rhsIdx, D, dot_S16384x16_S16384x128_S16x128_0_0_1_1_n_n]; rfl

/-- The contraction positions are the tile's 16384 rows. -/
def rows : D.contr.Idx ≃ Fin 16384 := contrEquiv1 D 16384 (by decide) (by decide)

theorem rows_symm_val (k : Fin 16384) : ((rows.symm k) ⟨0, by decide⟩ : ℕ) = k.val :=
  contrEquiv1_symm_val D 16384 (by decide) (by decide) k

/-- THE ONE-HOT TABLE at `(k, b)`: the indicator of "row `k`'s segment word reads `b`". -/
theorem onehot_apply (v3 : Vec Ideal S16384x1 .i32) (k : Fin 16384) (b : Fin 16) :
    (sitofp .f32 (extui 32 (cmpi .eq (broadcastTo S16384x16 (shapeCast S16384x1 v3 Facts₀.shapeCasts_S16384x1_S16384x1) Facts₀.broadcasts_S16384x1_S16384x16)
        (iota .tc S16384x16 32 [1] Facts₀.iota_S16384x16_d1_w32)) Facts₀.natLt_1_32) : FVec Ideal S16384x16 .f32) (ix2 k b)
      = if (v3 (ix2 k (0 : Fin 1))).toInt = (b.val : ℤ) then 1 else 0 := by
  rw [sitofp_apply, extui_apply]
  show ((((IntOp.cmpi .eq _ _).setWidth 32).toInt : ℝ) : EReal) = _
  rw [iota_single_apply, shapeCast_self,
    broadcastTo_apply v3 Facts₀.broadcasts_S16384x1_S16384x16 (ix2 k b) (ix2 k (0 : Fin 1)) (fun a => match a with
      | ⟨0, _⟩ => by show k.val = if (16384 : Nat) = 1 then 0 else k.val; rw [if_neg (by decide)]
      | ⟨1, _⟩ => by show 0 = if (1 : Nat) = 1 then 0 else _; rw [if_pos rfl])]
  exact hot_ereal _ b.val (by have := b.isLt; omega)

/-- THE STEP at `(b, d)`: the total found plus the tile's rows of segment `b`, column `d`. -/
theorem step_apply (v3 : Vec Ideal S16384x1 .i32) (v10 : Vec Ideal S16384x128 .f32) (v12 : Vec Ideal S16x128 .f32) (b : Fin 16) (d : Fin 128) :
    k0_pay2 (F := Ideal) v3 v10 v12 (ix2 b d)
      = v12 (ix2 b d) + ∑ k : Fin 16384, if (v3 (ix2 k (0 : Fin 1))).toInt = (b.val : ℤ) then v10 (ix2 k d) else 0 := by
  unfold k0_pay2
  dsimp only
  rw [shapeCast_self]
  show v12 (ix2 b d) + _ = _
  refine congrArg (v12 (ix2 b d) + ·) ?_
  refine (Ideal.matmul_constant_zero_apply D none _ v10 (ix2 b d)).trans ?_
  rw [← Equiv.sum_comp rows.symm]
  refine Finset.sum_congr rfl fun k _ => ?_
  have hl : D.lhsIdx (ix2 b d) (rows.symm k) = ix2 k b :=
    Shape.idx_ext₂ ((lhs_0 _ _).trans (rows_symm_val k)) (lhs_1 _ _)
  have hr : D.rhsIdx (ix2 b d) (rows.symm k) = ix2 k d :=
    Shape.idx_ext₂ ((rhs_0 _ _).trans (rows_symm_val k)) (rhs_1 _ _)
  rw [hl, hr, onehot_apply, ite_one_zero_mul]

/-- THE QUOTIENT at `(b, d)`: the total's entry divided by the lengths column's entry `b`. -/
theorem quot_apply (v20 : Vec Ideal S16x1 .f32) (v22 : Vec Ideal S16x128 .f32) (b : Fin 16) (d : Fin 128) :
    k0_pay3 (F := Ideal) v20 v22 (ix2 b d) = Ideal.div (v22 (ix2 b d)) (v20 (ix2 b (0 : Fin 1))) := by
  unfold k0_pay3
  show Ideal.div (v22 (ix2 b d)) _ = _
  refine congrArg (Ideal.div (v22 (ix2 b d))) ?_
  rw [shapeCast_self]
  exact broadcastTo_apply v20 Facts₀.broadcasts_S16x1_S16x128 (ix2 b d) (ix2 b (0 : Fin 1)) (fun a => match a with
      | ⟨0, _⟩ => by show b.val = if (16 : Nat) = 1 then 0 else b.val; rw [if_neg (by decide)]
      | ⟨1, _⟩ => by show 0 = if (1 : Nat) = 1 then 0 else _; rw [if_pos rfl])

/-- The zero block the first point stores. -/
theorem zero_apply (j : S16x128.Idx) : k0_pay1 (F := Ideal) j = 0 := by
  unfold k0_pay1
  rw [shapeCast_self]
  show Ideal.ofBits .f32 0x00000000#32 = 0
  exact Ideal.ofBits_zero_f32

end Cert.KernelIdeal.Tile

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KernelValue.lean ====
/-
  The kernel computes the segment mean.

  The grid has 64 points; point `t` sees rows `16384 t … 16384 t + 16383` of the segment column and of `x`, and the
  whole lengths column (the lengths converted to floats, as a `[16, 1]` column). The running total after point `n` is,
  entry `(b, d)`, the sum over the first `16384 (n + 1)` rows `r` of `x[r, d]` when row `r`'s segment word reads `b` and of
  zero otherwise: at the first point the zero block plus tile 0's share, at each later point the total before plus
  that tile's share. After the last point all 1048576 rows are in, and the one block the kernel writes back (at the
  last point, covering the whole `[16, 128]` result) is the total divided by the lengths: the segment mean.
-/
import proofs.«412214_j68238440399538_1_alg».proof.Proof.Gen.KernelIdeal.Value
import proofs.«412214_j68238440399538_1_alg».proof.Proof.KernelPieces
import proofs.«412214_j68238440399538_1_alg».proof.Proof.KernelTile
import proofs.«412214_j68238440399538_1_alg».proof.Proof.LibReshape
import Idealize.ShloMosaic.Lib.StableHlo.Run

noncomputable section

namespace Cert.KernelIdeal.Mean

open Cert.KernelIdeal Cert.KernelIdeal.Gen Cert.KernelIdeal.Value Idealize.ShloMosaic Idealize.ShloMosaic.TcCoe Idealize.SL.Sem
open Idealize.ShloMosaic.ValueIdx Cert.SegMean
open Idealize.ShloMosaic.Pipeline (Dat)

variable (m : (ℓ : Loc nD τ sig) → Buf (Elt Ideal) ℓ) (ρ : Dev nD → PrngReg)

/-! ## The arrays and the blocks, at their literal types -/

abbrev xArr (c : Dev nD) : S1048576x128.Idx → EReal := m ((c : Thread nD τ).loc main_arg0)
abbrev segArr (c : Dev nD) : S1048576.Idx → BitVec 32 := m ((c : Thread nD τ).loc main_arg1)
abbrev lenArr (c : Dev nD) : S16.Idx → BitVec 32 := m ((c : Thread nD τ).loc main_arg2)
abbrev segBlk (c : Dev nD) (t : Fin cfg0.N) : Vec Ideal S16384x1 .i32 := iblk m c 0 t
abbrev xBlk (c : Dev nD) (t : Fin cfg0.N) : Vec Ideal S16384x128 .f32 := iblk m c 1 t
abbrev lenBlk (c : Dev nD) (t : Fin cfg0.N) : Vec Ideal S16x1 .f32 := iblk m c 2 t

/-- The printed index maps, decided over the grid: the segment column's and `x`'s block index is the point, on the
    row axis; the lengths column and the result have one block. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem point_lt (t : Fin cfg0.N) : t.val < 64 := lt_of_lt_of_eq t.isLt (show cfg0.N = 64 from N_0)

/-- The region finds the segment vector reshaped to a column … -/
theorem seg_col (c : Dev nD) : (V m c main_v0 : S1048576x1.Idx → BitVec 32)
    = shapeCast S1048576x1 (segArr m c) Facts₀.shapeCasts_S1048576_S1048576x1 := by
  dsimp only [Gen.V, Gen.hostOps0]; after_results; rfl

/-- … and the lengths, converted to floats, reshaped to a column. -/
theorem len_col (c : Dev nD) : (V m c main_v2 : S16x1.Idx → EReal)
    = shapeCast S16x1 (sitofp (F := Ideal) .f32 (lenArr m c)) Facts₀.shapeCasts_S16_S16x1 := by
  dsimp only [Gen.V, Gen.hostOps0]; after_results; rfl

/-- Row `k` of point `t`'s segment block is row `16384 t + k` of the segment vector. -/
theorem segBlk_apply (c : Dev nD) (t : Fin cfg0.N) (k : Fin 16384) (hr : t.val * 16384 + k.val < 1048576) :
    segBlk m c t (ix2 k (0 : Fin 1)) = segArr m c (ix1 ⟨t.val * 16384 + k.val, hr⟩) := by
  obtain ⟨e0, e1, -⟩ := index_facts t
  show V m c main_v0 (((cfg0.win 0).blk t).view.emb (ix2 k (0 : Fin 1))) = _
  have he : ((cfg0.win 0).blk t).view.emb (ix2 k (0 : Fin 1)) = (ix2 ⟨t.val * 16384 + k.val, hr⟩ (0 : Fin 1) : S1048576x1.Idx) :=
    Shape.idx_ext₂ (by show win0_0.index t (0 : Fin 2) * 16384 + 1 * k.val = t.val * 16384 + k.val; rw [e0]; omega)
      (by show win0_0.index t (1 : Fin 2) * 1 + 1 * 0 = 0; rw [e1])
  rw [he]
  exact (congrFun (seg_col m c) _).trans (Cert.Rgcn.Lib.col_of_vec_apply (segArr m c) _ _)

/-- Entry `(k, d)` of point `t`'s block of `x` is entry `(16384 t + k, d)` of `x`. -/
theorem xBlk_apply (c : Dev nD) (t : Fin cfg0.N) (k : Fin 16384) (d : Fin 128) (hr : t.val * 16384 + k.val < 1048576) :
    xBlk m c t (ix2 k d) = xArr m c (ix2 ⟨t.val * 16384 + k.val, hr⟩ d) := by
  obtain ⟨-, -, e0, e1, -⟩ := index_facts t
  show V m c main_arg0 (((cfg0.win 1).blk t).view.emb (ix2 k d)) = _
  have he : ((cfg0.win 1).blk t).view.emb (ix2 k d) = (ix2 ⟨t.val * 16384 + k.val, hr⟩ d : S1048576x128.Idx) :=
    Shape.idx_ext₂ (by show win0_1.index t (0 : Fin 2) * 16384 + 1 * k.val = t.val * 16384 + k.val; rw [e0]; omega)
      (by show win0_1.index t (1 : Fin 2) * 128 + 1 * d.val = d.val; rw [e1]; omega)
  rw [he]
  exact congrFun (V_main_arg0 m c) _

/-- Row `b` of the lengths column is segment `b`'s length word as a number. -/
theorem lenBlk_apply (c : Dev nD) (t : Fin cfg0.N) (b : Fin 16) :
    lenBlk m c t (ix2 b (0 : Fin 1)) = (((lenArr m c (ix1 b)).toInt : ℝ) : EReal) := by
  obtain ⟨-, -, -, -, e0, e1, -⟩ := index_facts t
  show V m c main_v2 (((cfg0.win 2).blk t).view.emb (ix2 b (0 : Fin 1))) = _
  have he : ((cfg0.win 2).blk t).view.emb (ix2 b (0 : Fin 1)) = (ix2 b (0 : Fin 1) : S16x1.Idx) :=
    Shape.idx_ext₂ (by show win0_2.index t (0 : Fin 2) * 16 + 1 * b.val = b.val; rw [e0]; omega)
      (by show win0_2.index t (1 : Fin 2) * 1 + 1 * 0 = 0; rw [e1])
  rw [he]
  exact (congrFun (len_col m c) _).trans (Cert.Rgcn.Lib.col_of_vec_apply (sitofp (F := Ideal) .f32 (lenArr m c)) _ _)

/-! ## What each point leaves, as the body's values of the point's blocks -/

/-- The first point leaves the zero block plus tile 0's share. -/
theorem total_first (c : Dev nD) (t : Fin cfg0.N) (h0 : t.val % 64 = 0) (h1 : ¬t.val % 64 = 63) :
    (outsAt0 m c t.val t.isLt).2 = k0_pay2 (segBlk m c t) (xBlk m c t) (k0_pay1 (F := Ideal)) := by
  rw [outsAt0_A m c t h0 h1]
  dsimp only
  exact Pieces.total_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- A later point leaves what the point before left plus its tile's share. -/
theorem total_later (c : Dev nD) (t : Fin cfg0.N) (h0 : ¬t.val % 64 = 0) :
    (outsAt0 m c t.val t.isLt).2 = k0_pay2 (segBlk m c t) (xBlk m c t) (outsAt0 m c (t.val - 1) (Nat.lt_of_le_of_lt (Nat.sub_le _ _) t.isLt)).2 := by
  by_cases h1 : t.val % 64 = 63
  · rw [outsAt0_C m c t h0 h1]
    dsimp only
    exact Pieces.total_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.total_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The last point leaves, in the output block, its new total divided by the lengths column. -/
theorem out_last (c : Dev nD) (t : Fin cfg0.N) (h0 : ¬t.val % 64 = 0) (h1 : t.val % 64 = 63) :
    (outsAt0 m c t.val t.isLt).1 = k0_pay3 (lenBlk m c t) (k0_pay2 (segBlk m c t) (xBlk m c t) (outsAt0 m c (t.val - 1) (Nat.lt_of_le_of_lt (Nat.sub_le _ _) t.isLt)).2) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## The running total -/

/-- Row `r`'s share of entry `(b, d)`: `x[r, d]` when the row's segment word reads `b`, else zero (and zero past the table). -/
def share (c : Dev nD) (b : Fin 16) (d : Fin 128) (r : ℕ) : EReal :=
  if h : r < 1048576 then (if (segArr m c (ix1 ⟨r, h⟩)).toInt = (b.val : ℤ) then xArr m c (ix2 ⟨r, h⟩ d) else 0) else 0

/-- Tile `t`'s share of entry `(b, d)`, over the point's blocks, is the sum of its rows' shares. -/
theorem tile_share (c : Dev nD) (t : Fin cfg0.N) (b : Fin 16) (d : Fin 128) :
    (∑ k : Fin 16384, if (segBlk m c t (ix2 k (0 : Fin 1))).toInt = (b.val : ℤ) then xBlk m c t (ix2 k d) else 0)
      = ∑ k ∈ Finset.range 16384, share m c b d (t.val * 16384 + k) := by
  rw [Finset.sum_range]
  refine Finset.sum_congr rfl fun k _ => ?_
  have hr : t.val * 16384 + k.val < 1048576 := by have := point_lt t; have := k.isLt; omega
  unfold share
  rw [dif_pos hr, segBlk_apply m c t k hr, xBlk_apply m c t k d hr]

/-- THE RUNNING TOTAL after point `n`: the shares of the first `16384 (n + 1)` rows. -/
theorem total_eq (c : Dev nD) (b : Fin 16) (d : Fin 128) : ∀ (n : ℕ) (h : n < cfg0.N),
    (outsAt0 m c n h).2 (ix2 b d) = ∑ r ∈ Finset.range ((n + 1) * 16384), share m c b d r
  | 0, h => by
    refine (congrFun (total_first m c ⟨0, h⟩ rfl (by dsimp only; omega)) (ix2 b d)).trans ?_
    rw [Tile.step_apply, Tile.zero_apply, zero_add, tile_share, sum_range_succ_tile, Nat.zero_mul, Finset.range_zero,
      Finset.sum_empty, zero_add]
  | n + 1, h => by
    have hN : n + 1 < 64 := lt_of_lt_of_eq h (show cfg0.N = 64 from N_0)
    refine (congrFun (total_later m c ⟨n + 1, h⟩ (by dsimp only; omega)) (ix2 b d)).trans ?_
    rw [Tile.step_apply, tile_share, sum_range_succ_tile _ 16384 (n + 1)]
    exact congrArg (· + _) (total_eq c b d n (Nat.lt_of_succ_lt h))

/-! ## The result array -/

/-- The result: the segment mean of the argument arrays. -/
abbrev result (c : Dev nD) : S16x128.Idx → EReal := segMean (xArr m c) (segArr m c) (lenArr m c)

/-- The one write-back, at the last point, writes the segment mean's one block. -/
theorem flushed_eq (c : Dev nD) (t : Fin cfg0.N) (hf : (cfg0.win 3).flush t = true) :
    (dats m 0 c).flushed 3 t = ((cfg0.win 3).blk t).view.read (Elt Ideal) (result m c) := by
  have hlt := point_lt t
  have h63 : t.val % 64 = 63 := (flush0_3 t).mp hf
  have h0 : ¬t.val % 64 = 0 := by omega
  have hv : t.val = 63 := by omega
  obtain ⟨-, -, -, -, -, -, e0, e1⟩ := index_facts t
  rw [flushed3, out_last m c t h0 h63]
  funext j
  obtain ⟨b, d, rfl⟩ : ∃ (b : Fin 16) (d : Fin 128), j = ix2 b d := ⟨j 0, j 1, eq_ix2 j⟩
  show k0_pay3 (lenBlk m c t) _ (ix2 b d) = result m c (((cfg0.win 3).blk t).view.emb (ix2 b d))
  have he : ((cfg0.win 3).blk t).view.emb (ix2 b d) = (ix2 b d : S16x128.Idx) :=
    Shape.idx_ext₂ (by show win0_3.index t (0 : Fin 2) * 16 + 1 * b.val = b.val; rw [e0]; omega)
      (by show win0_3.index t (1 : Fin 2) * 128 + 1 * d.val = d.val; rw [e1]; omega)
  rw [he, Tile.quot_apply, lenBlk_apply, Tile.step_apply, tile_share]
  have hp : t.val - 1 < cfg0.N := Nat.lt_of_le_of_lt (Nat.sub_le _ _) t.isLt
  have ht : t.val - 1 + 1 = t.val := by omega
  rw [total_eq m c b d (t.val - 1) hp, ht, ← sum_range_succ_tile]
  show Ideal.div _ _ = Ideal.div _ _
  refine congrArg (fun s => Ideal.div s _) ?_
  rw [show (t.val + 1) * 16384 = 1048576 by omega, Finset.sum_range]
  refine Finset.sum_congr rfl fun r _ => ?_
  unfold share
  rw [dif_pos r.isLt]

/-- The last grid point. -/
abbrev lastPoint : Fin cfg0.N := ⟨63, by rw [show cfg0.N = 64 from N_0]; decide⟩

/-- So the result array ends holding the segment mean: the last point's block covers it. -/
theorem final (c : Dev nD) : (dats m 0 c).arrAt 3 cfg0.N = result m c :=
  (dats m 0 c).arrAt_eq_of_cover 3 (result m c) (flushed_eq m c) fun i =>
    ⟨lastPoint, (flush0_3 lastPoint).mpr rfl, by
      show i ∈ ((View.whole main_v3).slice (win0_3.rect lastPoint)).set
      rw [View.set_slice_whole, Rect.mem_set_unit]
      obtain ⟨-, -, -, -, -, -, e0, e1⟩ := index_facts lastPoint
      intro a
      have h0 : (i 0 : Nat) < 16 := (i 0).isLt
      have h1 : (i 1 : Nat) < 128 := (i 1).isLt
      match a with
      | ⟨0, _⟩ =>
        show win0_3.index lastPoint (0 : Fin 2) * 16 ≤ (i 0 : Nat) ∧ (i 0 : Nat) < win0_3.index lastPoint (0 : Fin 2) * 16 + 16
        rw [e0]; omega
      | ⟨1, _⟩ =>
        show win0_3.index lastPoint (1 : Fin 2) * 128 ≤ (i 1 : Nat) ∧ (i 1 : Nat) < win0_3.index lastPoint (1 : Fin 2) * 128 + 128
        rw [e1]; omega⟩

/-- The run, read: the result array at the segment mean of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Mean

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefValue.lean ====
/-
  The reference computes the segment mean.

  The reference scatters the rows of `x` into a zero [16,128] table, row `r` added into the table row its segment
  word names (read signed, not clamped: a word outside `0 … 15` lands nowhere), and divides by the lengths, converted
  to floats and spread along the columns. At the exact values the scatter is the zero entry plus the sum of the rows
  that land on it: the sum over the rows whose word reads `b`, which is the sum over all rows of the entry or zero.
-/
import proofs.«412214_j68238440399538_1_alg».proof.Proof.Gen.ReferenceIdeal.Read
import proofs.«412214_j68238440399538_1_alg».proof.Proof.LibIndexed
import proofs.«412214_j68238440399538_1_alg».proof.Proof.SegSum
import Idealize.ShloMosaic.Lib.ValueIdx
import Idealize.ShloMosaic.PureOps.Ideal.Laws

noncomputable section

namespace Cert.ReferenceIdeal.Mean

open Cert.ReferenceIdeal Cert.ReferenceIdeal.Gen Cert.ReferenceIdeal.Read Idealize.ShloMosaic Idealize.ShloMosaic.ValueIdx Cert.SegMean

/-- The segment column `[1048576, 1]` read at `(e, 0)` is the segment vector at `e`. -/
theorem seg_col_apply (x1 : (⟨S1048576, .i32⟩ : BufTy).Contents (Elt Ideal)) (e : Fin 1048576) :
    val_main_v1 (F := Ideal) x1 (ix2 e (0 : Fin 1)) = x1 (ix1 e) := by
  rw [val_main_v1_apply]
  exact congrArg x1 (funext fun a => match a with | ⟨0, _⟩ => rfl)

/-- The lengths spread to `[16, 128]`, read at `(b, d)`, are segment `b`'s length word as a number. -/
theorem len_apply (x2 : (⟨S16, .i32⟩ : BufTy).Contents (Elt Ideal)) (b : Fin 16) (d : Fin 128) :
    val_main_v5 (F := Ideal) x2 (ix2 b d) = (((x2 (ix1 b)).toInt : ℝ) : EReal) := by
  rw [val_main_v5_apply, val_main_v4_apply, val_main_v3_apply]
  show (((x2 _).toInt : ℝ) : EReal) = _
  exact congrArg (fun i => (((x2 i).toInt : ℝ) : EReal)) (funext fun a => match a with | ⟨0, _⟩ => rfl)

/-- THE REFERENCE'S RESULT IS THE SEGMENT MEAN. -/
theorem result_eq (x0 : (⟨S1048576x128, .f32⟩ : BufTy).Contents (Elt Ideal)) (x1 : (⟨S1048576, .i32⟩ : BufTy).Contents (Elt Ideal))
    (x2 : (⟨S16, .i32⟩ : BufTy).Contents (Elt Ideal)) :
    val_main_v6 (F := Ideal) x0 x1 x2 = segMean x0 x1 x2 := by
  funext j
  obtain ⟨b, d, rfl⟩ : ∃ (b : Fin 16) (d : Fin 128), j = ix2 b d := ⟨j 0, j 1, eq_ix2 j⟩
  rw [val_main_v6_apply, len_apply]
  unfold val_main_v2
  rw [Cert.Rgcn.Lib.scatterAdd_rows_apply scatter_S16x128_S1048576x1_S1048576x128_1_0_0_1
    Facts₀.scatter_S16x128_S1048576x1_S1048576x128_1_0_0_1_wf rfl]
  rw [val_main_v0_apply, val_main_cst_apply]
  show Ideal.div (Ideal.ofBits .f32 0x00000000#32 + _) _ = Ideal.div _ _
  rw [Ideal.ofBits_zero_f32, zero_add, Finset.sum_filter]
  simp only [seg_col_apply]

end Cert.ReferenceIdeal.Mean

end
-- ==== Proof.lean ====
/-
  Per-segment means of the rows of a table: `out[b, d] = (Σ over the rows r whose segment id is b of x[r, d]) / lengths[b]`,
  for 1048576 rows in 16 segments and 128 columns.

  The kernel walks the rows in 64 tiles of 16384. For each tile it builds the one-hot table `h[k, b] = (seg[k] == b)`,
  contracts it with the tile's rows on the matrix unit, and adds the `[16, 128]` product into a running total that
  starts from zero at the first tile; after the last tile it divides the total by the lengths, converted to floats.
  The reference adds every row into the row of a zero `[16, 128]` table that its segment id names (an id outside
  `0 … 15` lands nowhere), and divides by the same lengths.

  Over the extended reals both are the SAME function of the arguments (`Cert.SegMean.segMean`): entry `(b, d)` is the
  sum over all rows `r` of `x[r, d]` if row `r`'s id reads `b` and of `0` otherwise, divided by `lengths[b]`. On the
  kernel's side a one-hot entry is `1` or `0`, and `1 · x = x`, `0 · x = 0` hold for every extended real, so a tile's
  product is the sum of its rows' shares; the running total after tile `n` is the sum of the shares of the first
  `16384 (n + 1)` rows, by induction on the tile (sums over the extended reals are commutative and associative); all
  rows are in after the last tile. On the reference's side the scatter at the exact values is the zero entry plus the
  sum of the rows that land on the entry. No finiteness of `x` is needed: the two sides are equal on all inputs.
  The ideal pass rewrote nothing, so there is nothing to preserve; the three frames are the programs' runs.
-/
import proofs.«412214_j68238440399538_1_alg».proof.Defs
import proofs.«412214_j68238440399538_1_alg».proof.Proof.Gen.Kernel
import proofs.«412214_j68238440399538_1_alg».proof.Proof.Gen.Kernel.Skeleton
import proofs.«412214_j68238440399538_1_alg».proof.Proof.Gen.Kernel.Launch
import proofs.«412214_j68238440399538_1_alg».proof.Proof.Gen.Kernel.Points
import proofs.«412214_j68238440399538_1_alg».proof.Proof.Gen.Kernel.Frame
import proofs.«412214_j68238440399538_1_alg».proof.Proof.Gen.KernelIdeal
import proofs.«412214_j68238440399538_1_alg».proof.Proof.Gen.KernelIdeal.Skeleton
import proofs.«412214_j68238440399538_1_alg».proof.Proof.Gen.KernelIdeal.Launch
import proofs.«412214_j68238440399538_1_alg».proof.Proof.Gen.KernelIdeal.Points
import proofs.«412214_j68238440399538_1_alg».proof.Proof.Gen.KernelIdeal.Frame
import proofs.«412214_j68238440399538_1_alg».proof.Proof.Gen.ReferenceIdeal
import proofs.«412214_j68238440399538_1_alg».proof.Proof.Gen.Pre_finite_inputs
import proofs.«412214_j68238440399538_1_alg».proof.Proof.Gen.KernelIdeal.Value
import proofs.«412214_j68238440399538_1_alg».proof.Proof.Gen.ReferenceIdeal.Run
import proofs.«412214_j68238440399538_1_alg».proof.Proof.Gen.ReferenceIdeal.Read
import Idealize.ShloMosaic.Adequacy
import Idealize.ShloMosaic.Init

import proofs.«412214_j68238440399538_1_alg».proof.Proof.KernelValue
import proofs.«412214_j68238440399538_1_alg».proof.Proof.RefValue

noncomputable section

namespace Cert.Proof

open Idealize.ShloMosaic Idealize.ShloMosaic.TcCoe Idealize.SL.Sem

/-- The kernel as printed runs, and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the segment mean of arguments that agree. -/
theorem algebraic : Cert.algebraic_KernelIdeal_ReferenceIdeal := by
  intro m ρ m' ρ' _ hagree
  refine ⟨fun c => Cert.KernelIdeal.Mean.result m c, Cert.KernelIdeal.Mean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Mean.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
